-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S512x1 : Shape := ⟨2, ![512, 1]⟩
abbrev S1x512 : Shape := ⟨2, ![1, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  transposes_S4096x4096_S4096x4096_1_0 : S4096x4096.Transposes [1, 0] S4096x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibSharedFrame.lean ====
/-
  The frame run of a ONE-region pipelined kernel whose INPUT windows may read one array through several windows.

  The library's frame run holds every windowed array at the full share and so asks the windows' arrays to be
  pairwise distinct buffers. When two input windows stage blocks of the SAME array that cannot be: the array's
  one full share has to be dealt among the windows on it. `θ_run_frame_shared` is the same run with that one
  step left to the caller (`hsplit`: the distinct buffers behind the arrays, each whole at the full share at the
  region-entry contents, yield the proof data's `arrays` at entry, each window at the share the data name), for
  a kernel with no semaphore of its own that carries nothing between grid points but what its staging buffers hold:
  the region invariant is the core's scoped buffers that are no staging buffer, at some contents each. It concludes
  the library's `FramePost`: every window's array at `Dat.arrAt … N` and every other unscoped buffer as the region
  found it.

  `pointsTo_halves` is the splitting step itself for an array read by two windows: the full share is its left
  half beside its right half.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section Shared

variable {Λ₀ : SL.Sem.Labels} {P : Type} [Fintype P] [DecidableEq P] [∀ e, Nonempty (Val e)]

local notation "𝕄" => MT nD τ sig Unit Val ℕ (UR sig nD τ) ℕ

/-- A whole buffer held at the full share is the same buffer held at the left half beside the right half: how one
    array is dealt to two input windows that read it. -/
theorem pointsTo_halves (ℓ : Loc nD τ sig) (f : Buf Val ℓ) :
    ((ℓ ↦{fullShare} f : sProp 𝕄)) ⊢ iprop((ℓ ↦{fullShare.left} f) ∗ (ℓ ↦{fullShare.right} f)) :=
  (pointsTo_share (PosShare.mem_left_op_right fullShare)).1

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

omit [Fintype P] [DecidableEq P] [∀ e, Nonempty (Val e)] in
/-- The proof data's `arrays`, every window's array a whole buffer (`harr`): each window holds the buffer behind its
    array whole, at its own share. (The library's `arrays_eq` is this at full shares.) -/
theorem arrays_eq_shares (c : Dev nD) (harr : ∀ w, ((cfg).spec w).arr.IsWhole)
    (F : (w : Fin (cfg).W) → Buf Val (((cfg).spec w).arr.view.loc (c.tc : Thread nD τ))) :
    (dats p c).arrays F
      = bigSep Finset.univ fun w => (((c.tc : Thread nD τ).loc (arrRef (cfg).spec w)) ↦{(dats p c).share w} F w : sProp 𝕄) := by
  unfold Dat.arrays
  exact BI.bigSep_congr fun w _ => by rw [(harr w).set_eq_univ]

/-- THE FRAME RUN of a kernel whose input windows may share arrays: as the library's `θ_run_frame`, the arrays'
    distinctness replaced by `hsplit`, the invariant the scoped rest alone (`hΦ`). -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (cfg).spec c) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, Hr⟩; iexact Hr)
    (hout := fun c => by
      rw [hΦ]
      iintro Hr
      isplitr; · iempintro
      iexact Hr)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Shared

end Pipeline

end Idealize.ShloMosaic

end
-- ==== Proof.KFrameBits.lean ====
/-
  The frame of `Kernel`: @main is six host operations (the bf16 copy of the embeddings, their squares, the row
  sums, the row sums laid out as a column and as a row) and ONE pipelined kernel on an 8 × 8 grid whose five
  windows are: a 512 × 4096 block of the bf16 copy chosen by the first grid coordinate, a 512 × 4096 block of THE SAME
  bf16 copy chosen by the second grid coordinate, 512 entries of the column of squared norms, 512 entries of the row
  of squared norms, and the 512 × 512 output tile written back at every point.

  The two input windows that read the bf16 copy hold it at complementary halves of its full share; every other
  window's array is its own buffer. The kernel's body loads its four input blocks whole, computes, and stores the
  output block whole; so after the body at a point every input's staging buffer still holds its block and the output's
  holds the body's value on the four blocks. The run then ends with every windowed array at what the write-backs make
  of it and every other buffer — the argument among them — as the region found it.
-/
import proofs.«112192_j48249662603860_1_alg».proof.Proof.Gen.Kernel.Launch
import proofs.«112192_j48249662603860_1_alg».proof.Proof.Gen.Kernel.Skeleton
import proofs.«112192_j48249662603860_1_alg».proof.Proof.Gen.Kernel.Points
import proofs.«112192_j48249662603860_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves
    the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rA : Rect S512x4096 := Rect.unit (s := S512x4096) ![0, 0] S512x4096.size inb_S512x4096_S512x4096_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rO : Rect S512x512 := Rect.unit (s := S512x512) ![0, 0] S512x512.size inb_S512x512_S512x512_0_0

/-- The output's staging buffer after the body, from the four input blocks: its one store, whole, of the body's value. -/
def outTile (x0 x1 : Vec F S512x4096 .bf16) (x2 : Vec F S512x1 .f32) (x3 : Vec F S1x512 .f32) : Vec F S512x512 .f32 :=
  View.canon [⟨rO, k0_pay1 (View.ld x0 rA) (View.ld x1 rA) (View.ld x2 rC) (View.ld x3 rR)⟩]

/-- The one store covers the buffer. -/
theorem coverTile (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The body's triple -/

set_option maxHeartbeats 2000000 in
/-- The kernel body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S512x4096 .bf16) (harg2 : arg2.IsWhole) (arg3 : Memref sig .tc .vmem S512x4096 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x512 .f32) (harg6 : arg6.IsWhole)
    (x0 x1 : Vec F S512x4096 .bf16) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outTile x0 x1 x2 x3)) -∗ K ⟨⟩))
      ⊢ wp frame (wpE (defs₀ (F := F)) Variants.none c none) E (cc0__rdm_kernel i arg2 harg2 arg3 harg3 arg4 harg4 arg5 harg5 arg6 harg6) K := by
  simp only [cc0__rdm_kernel_eq_skeleton]; unfold cc0__rdm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The pipeline's proof data -/

/-- The proof data on core `c`: the arrays as the region finds them; after the body at point `t` each input's
    buffer at its block and the output's at `outTile` of the input blocks; between points nothing but the scoped
    buffers that are no staging buffer; nothing owed; the bf16 copy held at the left half of its share by the window
    that reads it by the first grid coordinate and at the right half by the other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one buffer dealt to two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four distinct buffers behind the five windows' arrays, each whole at the region-entry contents, are the
    proof data's arrays at entry: the bf16 copy's full share is its left half, for the window that reads it by the
    first grid coordinate, beside its right half, for the other. -/
theorem arrays_entry (c : Dev nD) :
    (Pipeline.arrBufs spec0 c (V m c) : sProp 𝕄) ⊢ (dats m 0 c).arrays ((dats m 0 c).arrAt · 0) := by
  rw [Pipeline.arrays_eq_shares cfgs (dats m) 0 c arr_whole0, bigSep_W0]
  unfold Pipeline.arrBufs
  rw [bigSep_eq_bigSepL_of_eq [main_v0, main_v3, main_v4, main_v5] (by decide) (by decide)]
  rw [share0, share1, share2, share3, share4]
  show (iprop((((c : Thread nD τ).loc main_v0) ↦{fullShare} V m c main_v0) ∗ (((c : Thread nD τ).loc main_v3) ↦{fullShare} V m c main_v3)
      ∗ (((c : Thread nD τ).loc main_v4) ↦{fullShare} V m c main_v4) ∗ (((c : Thread nD τ).loc main_v5) ↦{fullShare} V m c main_v5)) : sProp 𝕄) ⊢ _
  iintro ⟨H0, H3, H4, H5⟩
  ihave H0' := (Pipeline.pointsTo_halves _ _) $$ H0
  icases H0' with ⟨H0l, H0r⟩
  isplitl [H0l]; · iexact H0l
  isplitl [H0r]; · iexact H0r
  isplitl [H3]; · iexact H3
  isplitl [H4]; · iexact H4
  iexact H5

/-! ## The run and the frame -/

set_option backward.isDefEq.respectTransparency.types false in
/-- Every weakly fair execution of @main terminates, and every final state has every windowed array at what the
    write-backs make of it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m)
    (hmain := hmain m Variants.none) (hsplit := arrays_entry m) (hΦ := fun _ _ => rfl)

/-- The frame: the argument ends as launched (no window stages it, no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.Kernel.Fr

end
-- ==== Proof.KFrameIdeal.lean ====
/-
  The frame of `KernelIdeal`: @main is six host operations (the bf16 copy of the embeddings, their squares, the row
  sums, the row sums laid out as a column and as a row) and ONE pipelined kernel on an 8 × 8 grid whose five
  windows are: a 512 × 4096 block of the bf16 copy chosen by the first grid coordinate, a 512 × 4096 block of THE SAME
  bf16 copy chosen by the second grid coordinate, 512 entries of the column of squared norms, 512 entries of the row
  of squared norms, and the 512 × 512 output tile written back at every point.

  The two input windows that read the bf16 copy hold it at complementary halves of its full share; every other
  window's array is its own buffer. The kernel's body loads its four input blocks whole, computes, and stores the
  output block whole; so after the body at a point every input's staging buffer still holds its block and the output's
  holds the body's value on the four blocks. The run then ends with every windowed array at what the write-backs make
  of it and every other buffer — the argument among them — as the region found it.
-/
import proofs.«112192_j48249662603860_1_alg».proof.Proof.Gen.KernelIdeal.Launch
import proofs.«112192_j48249662603860_1_alg».proof.Proof.Gen.KernelIdeal.Skeleton
import proofs.«112192_j48249662603860_1_alg».proof.Proof.Gen.KernelIdeal.Points
import proofs.«112192_j48249662603860_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves
    the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rA : Rect S512x4096 := Rect.unit (s := S512x4096) ![0, 0] S512x4096.size inb_S512x4096_S512x4096_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rO : Rect S512x512 := Rect.unit (s := S512x512) ![0, 0] S512x512.size inb_S512x512_S512x512_0_0

/-- The output's staging buffer after the body, from the four input blocks: its one store, whole, of the body's value. -/
def outTile (x0 x1 : Vec F S512x4096 .bf16) (x2 : Vec F S512x1 .f32) (x3 : Vec F S1x512 .f32) : Vec F S512x512 .f32 :=
  View.canon [⟨rO, k0_pay1 (View.ld x0 rA) (View.ld x1 rA) (View.ld x2 rC) (View.ld x3 rR)⟩]

/-- The one store covers the buffer. -/
theorem coverTile (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The body's triple -/

set_option maxHeartbeats 2000000 in
/-- The kernel body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S512x4096 .bf16) (harg2 : arg2.IsWhole) (arg3 : Memref sig .tc .vmem S512x4096 .bf16) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x512 .f32) (harg6 : arg6.IsWhole)
    (x0 x1 : Vec F S512x4096 .bf16) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outTile x0 x1 x2 x3)) -∗ K ⟨⟩))
      ⊢ wp frame (wpE (defs₀ (F := F)) Variants.none c none) E (cc0__rdm_kernel i arg2 harg2 arg3 harg3 arg4 harg4 arg5 harg5 arg6 harg6) K := by
  simp only [cc0__rdm_kernel_eq_skeleton]; unfold cc0__rdm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The pipeline's proof data -/

/-- The proof data on core `c`: the arrays as the region finds them; after the body at point `t` each input's
    buffer at its block and the output's at `outTile` of the input blocks; between points nothing but the scoped
    buffers that are no staging buffer; nothing owed; the bf16 copy held at the left half of its share by the window
    that reads it by the first grid coordinate and at the right half by the other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one buffer dealt to two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four distinct buffers behind the five windows' arrays, each whole at the region-entry contents, are the
    proof data's arrays at entry: the bf16 copy's full share is its left half, for the window that reads it by the
    first grid coordinate, beside its right half, for the other. -/
theorem arrays_entry (c : Dev nD) :
    (Pipeline.arrBufs spec0 c (V m c) : sProp 𝕄) ⊢ (dats m 0 c).arrays ((dats m 0 c).arrAt · 0) := by
  rw [Pipeline.arrays_eq_shares cfgs (dats m) 0 c arr_whole0, bigSep_W0]
  unfold Pipeline.arrBufs
  rw [bigSep_eq_bigSepL_of_eq [main_v0, main_v3, main_v4, main_v5] (by decide) (by decide)]
  rw [share0, share1, share2, share3, share4]
  show (iprop((((c : Thread nD τ).loc main_v0) ↦{fullShare} V m c main_v0) ∗ (((c : Thread nD τ).loc main_v3) ↦{fullShare} V m c main_v3)
      ∗ (((c : Thread nD τ).loc main_v4) ↦{fullShare} V m c main_v4) ∗ (((c : Thread nD τ).loc main_v5) ↦{fullShare} V m c main_v5)) : sProp 𝕄) ⊢ _
  iintro ⟨H0, H3, H4, H5⟩
  ihave H0' := (Pipeline.pointsTo_halves _ _) $$ H0
  icases H0' with ⟨H0l, H0r⟩
  isplitl [H0l]; · iexact H0l
  isplitl [H0r]; · iexact H0r
  isplitl [H3]; · iexact H3
  isplitl [H4]; · iexact H4
  iexact H5

/-! ## The run and the frame -/

set_option backward.isDefEq.respectTransparency.types false in
/-- Every weakly fair execution of @main terminates, and every final state has every windowed array at what the
    write-backs make of it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m)
    (hmain := hmain m Variants.none) (hsplit := arrays_entry m) (hΦ := fun _ _ => rfl)

/-- The frame: the argument ends as launched (no window stages it, no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.KernelIdeal.Fr

end
-- ==== Proof.PayAt.lean ====
/-
  The kernel body's arithmetic, read at one index of its 512 × 512 result: the row term plus the column term, minus twice
  the inner product of row p of the left block and row q of the right block (both operands are contracted along their
  second axis), clamped below at zero.
-/
import proofs.«112192_j48249662603860_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The product's operand indices, coordinate by coordinate -/

/-- The left operand's first coordinate is the result's row. -/
theorem lhs_mm_0 (i : S512x512.Idx) (c : dot_S512x4096_S512x4096_S512x512_1_1_0_0_n_n.contr.Idx) :
    (dot_S512x4096_S512x4096_S512x512_1_1_0_0_n_n.lhsIdx i c 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl

/-- The left operand's second coordinate is the contraction position. -/
theorem lhs_mm_1 (i : S512x512.Idx) (c : dot_S512x4096_S512x4096_S512x512_1_1_0_0_n_n.contr.Idx) :
    (dot_S512x4096_S512x4096_S512x512_1_1_0_0_n_n.lhsIdx i c 1).val = (c ⟨0, by decide⟩).val :=
  dot_S512x4096_S512x4096_S512x512_1_1_0_0_n_n.lhsIdx_val_of_single rfl i c

/-- The right operand's first coordinate is the result's column. -/
theorem rhs_mm_0 (i : S512x512.Idx) (c : dot_S512x4096_S512x4096_S512x512_1_1_0_0_n_n.contr.Idx) :
    (dot_S512x4096_S512x4096_S512x512_1_1_0_0_n_n.rhsIdx i c 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl

/-- The right operand's second coordinate is the contraction position. -/
theorem rhs_mm_1 (i : S512x512.Idx) (c : dot_S512x4096_S512x4096_S512x512_1_1_0_0_n_n.contr.Idx) :
    (dot_S512x4096_S512x4096_S512x512_1_1_0_0_n_n.rhsIdx i c 1).val = (c ⟨0, by decide⟩).val :=
  dot_S512x4096_S512x4096_S512x512_1_1_0_0_n_n.rhsIdx_val_of_single rfl i c

/-- The product into the zero accumulator, at (p, q): the inner product of row p of the left block and row q of the right. -/
theorem mm_at (a b : FVec Ideal S512x4096 .bf16) (p q : Fin 512) :
    FloatOps.matmul dot_S512x4096_S512x4096_S512x512_1_1_0_0_n_n none a b (constant S512x512 .f32 0x00000000#32) (ix2 p q)
      = ∑ k : Fin 4096, a (ix2 p k) * b (ix2 q k) := by
  rw [Ideal.matmul_constant_zero_apply, ← Equiv.sum_comp (ValueIdx.contrEquiv1 dot_S512x4096_S512x4096_S512x512_1_1_0_0_n_n 4096 rfl rfl).symm]
  refine Finset.sum_congr rfl fun k _ => ?_
  have hk := ValueIdx.contrEquiv1_symm_val dot_S512x4096_S512x4096_S512x512_1_1_0_0_n_n 4096 rfl rfl k
  have el : dot_S512x4096_S512x4096_S512x512_1_1_0_0_n_n.lhsIdx (ix2 p q) ((ValueIdx.contrEquiv1 dot_S512x4096_S512x4096_S512x512_1_1_0_0_n_n 4096 rfl rfl).symm k) = ix2 p k := funext fun x => Fin.ext (by
    match x with
    | ⟨0, _⟩ => exact lhs_mm_0 _ _
    | ⟨1, _⟩ => exact (lhs_mm_1 _ _).trans hk)
  have er : dot_S512x4096_S512x4096_S512x512_1_1_0_0_n_n.rhsIdx (ix2 p q) ((ValueIdx.contrEquiv1 dot_S512x4096_S512x4096_S512x512_1_1_0_0_n_n 4096 rfl rfl).symm k) = ix2 q k := funext fun x => Fin.ext (by
    match x with
    | ⟨0, _⟩ => exact rhs_mm_0 _ _
    | ⟨1, _⟩ => exact (rhs_mm_1 _ _).trans hk)
  rw [el, er]

/-! ## The two broadcasts at an index -/

/-- A column broadcast along the rows' length reads the column at the row. -/
theorem col_at (c : FVec Ideal S512x1 .f32) (p q : Fin 512) :
    broadcastTo S512x512 c broadcasts_S512x1_S512x512 (ix2 p q) = c (ix2 p 0) :=
  broadcastTo_apply c broadcasts_S512x1_S512x512 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- A row broadcast down the columns' length reads the row at the column. -/
theorem row_at (r : FVec Ideal S1x512 .f32) (p q : Fin 512) :
    broadcastTo S512x512 r broadcasts_S1x512_S512x512 (ix2 p q) = r (ix2 0 q) :=
  broadcastTo_apply r broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The payload at an index -/

/-- The body's result at (p, q): the column term at p plus the row term at q, minus twice the inner product of row p of
    the left block with row q of the right block, clamped below at zero. -/
theorem pay_at (v0 v2 : Vec Ideal S512x4096 .bf16) (v5 : Vec Ideal S512x1 .f32) (v7 : Vec Ideal S1x512 .f32) (p q : Fin 512) :
    Gen.k0_pay1 (F := Ideal) v0 v2 v5 v7 (ix2 p q)
      = max ((v5 (ix2 p 0) + v7 (ix2 0 q)) - Ideal.ofBits .f32 0x40000000#32 * ∑ k : Fin 4096, v0 (ix2 p k) * v2 (ix2 q k))
            (Ideal.ofBits .f32 0x00000000#32) := by
  unfold Gen.k0_pay1
  simp only [shapeCast_self]
  show max ((broadcastTo S512x512 v5 broadcasts_S512x1_S512x512 (ix2 p q) + broadcastTo S512x512 v7 broadcasts_S1x512_S512x512 (ix2 p q))
      - Ideal.ofBits .f32 0x40000000#32
        * FloatOps.matmul (F := Ideal) dot_S512x4096_S512x4096_S512x512_1_1_0_0_n_n none (v0 : FVec Ideal S512x4096 .bf16) (v2 : FVec Ideal S512x4096 .bf16)
            (constant (F := Ideal) S512x512 .f32 0x00000000#32) (ix2 p q))
      (Ideal.ofBits .f32 0x00000000#32) = _
  rw [col_at v5 p q, row_at v7 p q, mm_at v0 v2 p q]

end Cert.KernelIdeal.PayValue

end
-- ==== Proof.Spec.lean ====
/-
  The squared Euclidean distance matrix of the rows of a 4096 × 4096 matrix `x`, as ONE function of `x`, index by
  index over the extended reals: with `sq r = 0 + ∑ₖ x[r,k]²` the squared norm of row `r` and
  `gram p q = ∑ₖ x[p,k] · x[q,k]` the inner product of rows `p` and `q`,

      dist x [p, q] = max ((sq p + sq q) − 2 · gram p q) 0.

  The two float words (`0` and `2`) are kept as the words both programs spell; nothing here evaluates them.
-/
import Idealize.ShloMosaic.PureOps.Ideal
import Idealize.ShloMosaic.Lib.ValueIdx

noncomputable section

open scoped BigOperators

namespace Cert.Sqdist

open Idealize.ShloMosaic Idealize.ShloMosaic.ValueIdx

/-- The matrix shape, written literally. -/
abbrev Mat : Shape := ⟨2, ![4096, 4096]⟩

/-- The squared norm of row `r`: the sum's initial value (the zero word) plus the sum of the squares along the row. -/
def rowSq (x : FVec Ideal Mat .f32) (r : Fin 4096) : EReal :=
  Ideal.ofBits .f32 0x00000000#32 + ∑ k : Fin 4096, x (ix2 r k) * x (ix2 r k)

/-- The inner product of rows `p` and `q`. -/
def gram (x : FVec Ideal Mat .f32) (p q : Fin 4096) : EReal :=
  ∑ k : Fin 4096, x (ix2 p k) * x (ix2 q k)

/-- The clamped squared distance between rows `p` and `q`, from explicit coordinates. -/
def distAt (x : FVec Ideal Mat .f32) (p q : Fin 4096) : EReal :=
  max ((rowSq x p + rowSq x q) - Ideal.ofBits .f32 0x40000000#32 * gram x p q) (Ideal.ofBits .f32 0x00000000#32)

/-- The whole distance matrix. -/
def dist (x : FVec Ideal Mat .f32) : FVec Ideal Mat .f32 := fun j => distAt x (j 0) (j 1)

theorem dist_ix2 (x : FVec Ideal Mat .f32) (p q : Fin 4096) : dist x (ix2 p q) = distAt x p q := rfl

end Cert.Sqdist

end
-- ==== Proof.KValue.lean ====
/-
  What the idealized kernel's result array holds after the run: the squared-distance matrix of the argument's rows.

  At the ideal instance the bf16 copy of the embeddings IS the embeddings (a change of format is the identity), and
  the column and the row of squared norms the host computes hold `rowSq x r` at position `r`. Grid point `t` has
  block coordinates (I, J); its windows hold rows 512·I … of the embeddings, rows 512·J … of the embeddings, entries
  512·I … of the column and entries 512·J … of the row. So the body's value at (p, q) of the tile — column term at p
  plus row term at q, minus twice the inner product of row p of the first block with row q of the second, clamped at
  zero — is the distance matrix at (512·I + p, 512·J + q): what the point writes back is its block of the distance
  matrix, and the 64 blocks tile the array.
-/
import proofs.«112192_j48249662603860_1_alg».proof.Proof.KFrameIdeal
import proofs.«112192_j48249662603860_1_alg».proof.Proof.PayAt
import proofs.«112192_j48249662603860_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The embeddings as launched. -/
abbrev X (c : Dev nD) : FVec Ideal S4096x4096 .f32 := m ((c : Thread nD τ).loc main_arg0)

/-! ## The arrays the region finds -/

/-- The row sums of the squares, at row `r`: the squared norm of row `r`. -/
theorem rowsum_at (x : FVec Ideal S4096x4096 .f32) (r : Fin 4096) :
    Host.reduceAdd (F := Ideal) (mulf x x) (constant (F := Ideal) S_ .f32 0x00000000#32) reducesTo_S4096x4096_S4096_d1 h_S_ (ix1 r)
      = Cert.Sqdist.rowSq x r := by
  simp only [Host.reduceAdd, Ideal.hostReduceAdd_def]
  rw [Ideal.hostReduceAdd_single reducesTo_S4096x4096_S4096_d1 (by decide)]
  unfold Cert.Sqdist.rowSq
  refine congrArg₂ (· + ·) rfl (Finset.sum_congr rfl fun k _ => ?_)
  have e : (Shape.Reduces.lift (by decide : S4096x4096.Reduces [1] S4096) (ix1 r) k : S4096x4096.Idx) = ix2 r k :=
    funext fun a => Fin.ext (by match a with | ⟨0, _⟩ => rfl | ⟨1, _⟩ => rfl)
  rw [e]
  rfl

/-- The bf16 copy, as the region finds it, is the embeddings. -/
theorem bf16_eq (c : Dev nD) : (V m c main_v0 : S4096x4096.Idx → EReal) = X m c := by
  have e : (V m c main_v0 : S4096x4096.Idx → EReal) = truncf .bf16 (X m c) bitsLt_bf16_f32 := by
    dsimp only [V, hostOps0]; after_results
  rw [e]; rfl

/-- The column of squared norms, as the region finds it. -/
theorem col_eq (c : Dev nD) : (V m c main_v3 : S4096x1.Idx → EReal)
    = shapeCast S4096x1 (Host.reduceAdd (F := Ideal) (mulf (X m c) (X m c)) (constant (F := Ideal) S_ .f32 0x00000000#32) reducesTo_S4096x4096_S4096_d1 h_S_) shapeCasts_S4096_S4096x1 := by
  dsimp only [V, hostOps0]; after_results; rfl

/-- The row of squared norms, as the region finds it. -/
theorem row_eq (c : Dev nD) : (V m c main_v4 : S1x4096.Idx → EReal)
    = shapeCast S1x4096 (Host.reduceAdd (F := Ideal) (mulf (X m c) (X m c)) (constant (F := Ideal) S_ .f32 0x00000000#32) reducesTo_S4096x4096_S4096_d1 h_S_) shapeCasts_S4096_S1x4096 := by
  dsimp only [V, hostOps0]; after_results; rfl

/-- Entry `r` of the column is the squared norm of row `r`. -/
theorem col_at (c : Dev nD) (r : Fin 4096) (z : Fin 1) : (V m c main_v3 : S4096x1.Idx → EReal) (ix2 r z) = Cert.Sqdist.rowSq (X m c) r := by
  rw [col_eq, shapeCast_apply _ shapeCasts_S4096_S4096x1 (ix2 r z) (ix1 r)
    (by rw [Shape.rowMajor_val_one, Shape.rowMajor_val_two]; show r.val = r.val * 1 + z.val; omega)]
  exact rowsum_at (X m c) r

/-- Entry `r` of the row is the squared norm of row `r`. -/
theorem row_at (c : Dev nD) (r : Fin 4096) (z : Fin 1) : (V m c main_v4 : S1x4096.Idx → EReal) (ix2 z r) = Cert.Sqdist.rowSq (X m c) r := by
  rw [row_eq, shapeCast_apply _ shapeCasts_S4096_S1x4096 (ix2 z r) (ix1 r)
    (by rw [Shape.rowMajor_val_one, Shape.rowMajor_val_two]; show r.val = z.val * 4096 + r.val; omega)]
  exact rowsum_at (X m c) r

/-! ## The grid's index maps, decided over the 64 points -/

theorem hz : (![0, 0] : Fin 2 → Nat) = fun _ => 0 := funext fun a => by fin_cases a <;> rfl

/-- With (I, J) the output tile's block coordinates at a point: the first embeddings window is at block row I, the
    second at block row J, the column window at block I, the row window at block J; and I, J ≤ 7. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block coordinates is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The input blocks at a point, read where the output tile's rows and columns say -/

/-- The four input blocks at point `t`, at their literal types. -/
abbrev blkA (c : Dev nD) (t : Fin cfg0.N) : Vec Ideal S512x4096 .bf16 := iblk m c 0 t
abbrev blkB (c : Dev nD) (t : Fin cfg0.N) : Vec Ideal S512x4096 .bf16 := iblk m c 1 t
abbrev blkC (c : Dev nD) (t : Fin cfg0.N) : Vec Ideal S512x1 .f32 := iblk m c 2 t
abbrev blkR (c : Dev nD) (t : Fin cfg0.N) : Vec Ideal S1x512 .f32 := iblk m c 3 t

/-- Row `p` of the first embeddings block is row `512·I + p` of the embeddings. -/
theorem blk0_at (c : Dev nD) (t : Fin cfg0.N) (p : Fin 512) (k : Fin 4096) (r : Fin 4096)
    (hr : r.val = win0_4.index t (0 : Fin 2) * 512 + p.val) :
    blkA m c t (ix2 p k) = X m c (ix2 r k) := by
  obtain ⟨e0, e1, -⟩ := idx_facts t
  show (V m c main_v0 : S4096x4096.Idx → EReal) (((cfg0.win 0).blk t).view.emb (ix2 p k)) = _
  rw [bf16_eq]
  refine congrArg (X m c) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Row `q` of the second embeddings block is row `512·J + q` of the embeddings. -/
theorem blk1_at (c : Dev nD) (t : Fin cfg0.N) (q : Fin 512) (k : Fin 4096) (r : Fin 4096)
    (hr : r.val = win0_4.index t (1 : Fin 2) * 512 + q.val) :
    blkB m c t (ix2 q k) = X m c (ix2 r k) := by
  obtain ⟨-, -, e2, e3, -⟩ := idx_facts t
  show (V m c main_v0 : S4096x4096.Idx → EReal) (((cfg0.win 1).blk t).view.emb (ix2 q k)) = _
  rw [bf16_eq]
  refine congrArg (X m c) (funext fun a => Fin.ext ?_)
  match a with
  | ⟨0, _⟩ => show win0_1.index t (0 : Fin 2) * 512 + 1 * q.val = r.val; omega
  | ⟨1, _⟩ => show win0_1.index t (1 : Fin 2) * 4096 + 1 * k.val = k.val; omega

/-- Entry `p` of the column block is the squared norm of row `512·I + p`. -/
theorem blk2_at (c : Dev nD) (t : Fin cfg0.N) (p : Fin 512) (r : Fin 4096)
    (hr : r.val = win0_4.index t (0 : Fin 2) * 512 + p.val) :
    blkC m c t (ix2 p 0) = Cert.Sqdist.rowSq (X m c) r := by
  obtain ⟨-, -, -, -, e4, e5, -⟩ := idx_facts t
  show (V m c main_v3 : S4096x1.Idx → EReal) (((cfg0.win 2).blk t).view.emb (ix2 p 0)) = _
  have e : (((cfg0.win 2).blk t).view.emb (ix2 p 0) : S4096x1.Idx) = ix2 r (0 : Fin 1) := funext fun a => Fin.ext (by
    match a with
    | ⟨0, _⟩ => show win0_2.index t (0 : Fin 2) * 512 + 1 * p.val = r.val; omega
    | ⟨1, _⟩ => show win0_2.index t (1 : Fin 2) * 1 + 1 * 0 = 0; omega)
  rw [e]
  exact col_at m c r 0

/-- Entry `q` of the row block is the squared norm of row `512·J + q`. -/
theorem blk3_at (c : Dev nD) (t : Fin cfg0.N) (q : Fin 512) (r : Fin 4096)
    (hr : r.val = win0_4.index t (1 : Fin 2) * 512 + q.val) :
    blkR m c t (ix2 0 q) = Cert.Sqdist.rowSq (X m c) r := by
  obtain ⟨-, -, -, -, -, -, e6, e7, -⟩ := idx_facts t
  show (V m c main_v4 : S1x4096.Idx → EReal) (((cfg0.win 3).blk t).view.emb (ix2 0 q)) = _
  have e : (((cfg0.win 3).blk t).view.emb (ix2 0 q) : S1x4096.Idx) = ix2 (0 : Fin 1) r := funext fun a => Fin.ext (by
    match a with
    | ⟨0, _⟩ => show win0_3.index t (0 : Fin 2) * 1 + 1 * 0 = 0; omega
    | ⟨1, _⟩ => show win0_3.index t (1 : Fin 2) * 512 + 1 * q.val = r.val; omega)
  rw [e]
  exact row_at m c r 0

/-! ## What a point writes back -/

/-- The body's value at (p, q) of the tile at point `t` is the distance matrix at the tile's place in the array. -/
theorem tile_at (c : Dev nD) (t : Fin cfg0.N) (p q : Fin 512) :
    k0_pay1 (F := Ideal) (blkA m c t) (blkB m c t) (blkC m c t) (blkR m c t) (ix2 p q)
      = Cert.Sqdist.dist (X m c) (((cfg0.win 4).blk t).view.emb (ix2 p q)) := by
  obtain ⟨-, -, -, -, -, -, -, -, b0, b1⟩ := idx_facts t
  have hp : p.val < 512 := p.isLt
  have hq : q.val < 512 := q.isLt
  have hI : win0_4.index t (0 : Fin 2) * 512 + p.val < 4096 := by omega
  have hJ : win0_4.index t (1 : Fin 2) * 512 + q.val < 4096 := by omega
  have eIJ : (((cfg0.win 4).blk t).view.emb (ix2 p q) : S4096x4096.Idx)
      = ix2 (⟨win0_4.index t (0 : Fin 2) * 512 + p.val, hI⟩ : Fin 4096) (⟨win0_4.index t (1 : Fin 2) * 512 + q.val, hJ⟩ : Fin 4096) :=
    funext fun a => Fin.ext (by
      match a with
      | ⟨0, _⟩ => show win0_4.index t (0 : Fin 2) * 512 + 1 * p.val = win0_4.index t (0 : Fin 2) * 512 + p.val; omega
      | ⟨1, _⟩ => show win0_4.index t (1 : Fin 2) * 512 + 1 * q.val = win0_4.index t (1 : Fin 2) * 512 + q.val; omega)
  refine (PayValue.pay_at (blkA m c t) (blkB m c t) (blkC m c t) (blkR m c t) p q).trans ?_
  rw [eIJ, Cert.Sqdist.dist_ix2]
  unfold Cert.Sqdist.distAt Cert.Sqdist.gram
  have h2 := blk2_at m c t p ⟨_, hI⟩ rfl
  have h3 := blk3_at m c t q ⟨_, hJ⟩ rfl
  have h01 : ∑ k : Fin 4096, blkA m c t (ix2 p k) * blkB m c t (ix2 q k)
      = ∑ k : Fin 4096, X m c (ix2 (⟨_, hI⟩ : Fin 4096) k) * X m c (ix2 (⟨_, hJ⟩ : Fin 4096) k) :=
    Finset.sum_congr rfl fun k _ => by rw [blk0_at m c t p k ⟨_, hI⟩ rfl, blk1_at m c t q k ⟨_, hJ⟩ rfl]
  rw [h2, h3, h01]

/-- WHAT POINT `t` WRITES BACK is block `t` of the distance matrix. -/
theorem flushed_eq (c : Dev nD) (t : Fin cfg0.N) :
    (dats m 0 c).flushed 4 t = ((cfg0.win 4).blk t).view.read (Elt Ideal) (Cert.Sqdist.dist (X m c)) := by
  show (cfg0.win 4).cut (grid0.coords t) ((dats m 0 c).after 4 t) = _
  rw [after4]
  unfold outTile
  rw [View.canon_unit_zero hz]
  simp only [View.ld_unit_zero (S := S512x4096) hz, View.ld_unit_zero (S := S512x1) hz, View.ld_unit_zero (S := S1x512) hz]
  funext j
  obtain ⟨p, q, rfl⟩ : ∃ (p q : Fin 512), j = ix2 p q := ⟨j 0, j 1, eq_ix2 (n0 := 512) (n1 := 512) j⟩
  exact tile_at m c t p q

/-! ## The tiles cover the array -/

theorem mem_blk (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v5).slice (win0_4.rect t)).set ↔ _
  rw [View.set_slice_whole, Rect.mem_set_unit]
  exact Iff.rfl

/-- Index (a, b) lies in the tile of the point with block coordinates (a / 512, b / 512). -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : ((i : S4096x4096.Idx) 0).val < 4096 := ((i : S4096x4096.Idx) 0).isLt
  have hi1 : ((i : S4096x4096.Idx) 1).val < 4096 := ((i : S4096x4096.Idx) 1).isLt
  obtain ⟨t, ht⟩ := idx_onto ⟨((i : S4096x4096.Idx) 0).val / 512, by omega⟩ ⟨((i : S4096x4096.Idx) 1).val / 512, by omega⟩
  have q0 : win0_4.index t (0 : Fin 2) = ((i : S4096x4096.Idx) 0).val / 512 := congrFun ht 0
  have q1 : win0_4.index t (1 : Fin 2) = ((i : S4096x4096.Idx) 1).val / 512 := congrFun ht 1
  refine ⟨t, flush0_4 t, ?_⟩
  rw [mem_blk]
  intro a
  match a with
  | ⟨0, _⟩ => show win0_4.index t (0 : Fin 2) * 512 ≤ ((i : S4096x4096.Idx) 0).val ∧ ((i : S4096x4096.Idx) 0).val < win0_4.index t (0 : Fin 2) * 512 + 512; omega
  | ⟨1, _⟩ => show win0_4.index t (1 : Fin 2) * 512 ≤ ((i : S4096x4096.Idx) 1).val ∧ ((i : S4096x4096.Idx) 1).val < win0_4.index t (1 : Fin 2) * 512 + 512; omega

/-! ## The array after the run -/

theorem final (c : Dev nD) : (dats m 0 c).arrAt 4 cfg0.N = Cert.Sqdist.dist (X m c) :=
  (dats m 0 c).arrAt_eq_of_cover 4 (Cert.Sqdist.dist (X m c)) (fun t _ => flushed_eq m c t) (cover c)

/-- The idealized kernel's run: the result is the distance matrix of the argument's rows, the argument unchanged. -/
theorem run : θ_run defs (onTc (τ := τ) (main (F := Ideal))) ⟨m, fun _ => 0, ρ⟩ fun r => ∀ c : Dev nD,
      r.2.mem ((c.tc : Thread nD τ).loc main_v5) = Cert.Sqdist.dist (X m c)
      ∧ r.2.mem ((c.tc : Thread nD τ).loc main_arg0) = m ((c.tc : Thread nD τ).loc main_arg0) :=
  (θ_run defs _ _).mono (fun r h c => ⟨((h c).1 4).trans (final m c),
      ((h c).2 main_arg0 (Pipeline.mem_restRefs_of main_arg0 (by decide) (by decide))).trans (V_main_arg0 m c)⟩) (run_main m ρ)

end Cert.KernelIdeal.KV

end
-- ==== Proof.RefDist.lean ====
/-
  The reference program, read index by index, is the squared-distance matrix of the specification: at `[p, q]` it
  computes the squared norm of row `p` plus that of row `q`, subtracts twice the inner product of the two rows (the
  transpose read back turns the second factor `xᵀ[k, q]` into `x[q, k]`), and clamps below at zero, in this order.
-/
import proofs.«112192_j48249662603860_1_alg».proof.Proof.Gen.ReferenceIdeal.Read
import proofs.«112192_j48249662603860_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The element the row sum reads at `k` is `x[r, k]`, `r` the only coordinate of the result's index. -/
theorem idx_row (i : S4096.Idx) (k : Fin 4096) :
    idx_main_v1 i k = ix2 (n0 := 4096) (n1 := 4096) (i 0) k :=
  funext fun a => Fin.ext (by match a with | ⟨0, _⟩ => rfl | ⟨1, _⟩ => rfl)

/-- The left factor of the contraction at `[p, q]`, term `k`, is `x[p, k]`. -/
theorem idx_left (p q k : Fin 4096) :
    lidx_main_v3 (ix2 p q) k = ix2 (n0 := 4096) (n1 := 4096) p k :=
  funext fun a => Fin.ext (by match a with | ⟨0, _⟩ => rfl | ⟨1, _⟩ => rfl)

/-- The right factor of the contraction at `[p, q]`, term `k`, read through the transpose, is `x[q, k]`. -/
theorem idx_right (p q k : Fin 4096) :
    idx_main_v2 (ridx_main_v3 (ix2 p q) k) = ix2 (n0 := 4096) (n1 := 4096) q k :=
  funext fun a => Fin.ext (by match a with | ⟨0, _⟩ => rfl | ⟨1, _⟩ => rfl)

/-- The reduced vector at `r` is the squared norm of row `r`. -/
theorem row_read (x : FVec Ideal S4096x4096 .f32) (i : S4096.Idx) :
    val_main_v1 (F := Ideal) x i = Cert.Sqdist.rowSq x (i 0) := by
  rw [val_main_v1_apply, val_main_cst_apply]
  unfold Cert.Sqdist.rowSq
  simp only [val_main_v0_apply, idx_row, Ideal.mulf_def, Ideal.ofBits_def]

/-- The contraction at `[p, q]` is the inner product of rows `p` and `q`. -/
theorem gram_read (x : FVec Ideal S4096x4096 .f32) (p q : Fin 4096) :
    val_main_v3 (F := Ideal) x (ix2 p q) = Cert.Sqdist.gram x p q := by
  rw [val_main_v3_apply]
  unfold Cert.Sqdist.gram
  refine Finset.sum_congr rfl fun k _ => ?_
  rw [val_main_v2_apply, idx_left, idx_right]

theorem ref_eq (x : FVec Ideal Cert.ReferenceIdeal.S4096x4096 .f32) :
    Cert.ReferenceIdeal.Read.val_main_v13 (F := Ideal) x = Cert.Sqdist.dist x := by
  funext j
  obtain ⟨p, q, rfl⟩ : ∃ (p q : Fin 4096), j = ix2 p q := ⟨j 0, j 1, eq_ix2 j⟩
  rw [val_main_v13_apply, val_main_v11_apply, val_main_v8_apply, val_main_v6_apply, val_main_v4_apply,
    val_main_v7_apply, val_main_v5_apply, val_main_v10_apply, val_main_v9_apply, val_main_cst_0_apply,
    val_main_v12_apply, val_main_cst_1_apply, row_read, row_read, gram_read]
  simp only [Ideal.maximumf_def, Ideal.subf_def, Ideal.addf_def, Ideal.mulf_def, Ideal.ofBits_def]
  rfl

end Cert.ReferenceIdeal.RefValue

end
-- ==== Proof.lean ====
/-
  The squared Euclidean distance matrix of 4096 embeddings of dimension 4096, tiled: the kernel computes
  `max (‖eᵢ‖² + ‖eⱼ‖² − 2 eᵢ·eⱼ) 0` tile by tile on an 8 × 8 grid, each 512 × 512 tile from 512 rows of a bf16 copy
  of the embeddings (chosen by the tile's row), 512 rows of the same copy (chosen by the tile's column), and the
  squared norms as a column and as a row; the reference computes the same expression on whole arrays.

  Over the extended reals the two agree index by index with no algebra at all: the bf16 copy is the embeddings, the
  tile's inner products are the whole Gram matrix's entries, and both sides add, scale, subtract and clamp in the
  same order. What is proved here:
  * the frames of the kernel (at the bit level and idealized): `KFrameBits`, `KFrameIdeal` — the two windows that
    read the one bf16 copy hold complementary halves of its share (`LibSharedFrame`);
  * the idealized kernel's result is `Cert.Sqdist.dist` of the argument (`KValue`, over `PayAt`);
  * the reference's result is `Cert.Sqdist.dist` of the argument (`RefDist`, over the reference's run read back).
-/
import proofs.«112192_j48249662603860_1_alg».proof.Defs
import proofs.«112192_j48249662603860_1_alg».proof.Proof.Gen.Kernel
import proofs.«112192_j48249662603860_1_alg».proof.Proof.Gen.KernelIdeal
import proofs.«112192_j48249662603860_1_alg».proof.Proof.Gen.ReferenceIdeal
import proofs.«112192_j48249662603860_1_alg».proof.Proof.Gen.Pre_finite_inputs
import proofs.«112192_j48249662603860_1_alg».proof.Proof.Gen.ReferenceIdeal.Run
import proofs.«112192_j48249662603860_1_alg».proof.Proof.Gen.ReferenceIdeal.Read
import proofs.«112192_j48249662603860_1_alg».proof.Proof.KFrameBits
import proofs.«112192_j48249662603860_1_alg».proof.Proof.KFrameIdeal
import proofs.«112192_j48249662603860_1_alg».proof.Proof.KValue
import proofs.«112192_j48249662603860_1_alg».proof.Proof.RefDist
import Idealize.ShloMosaic.Adequacy
import Idealize.ShloMosaic.Init

noncomputable section

namespace Cert.Proof

open Idealize.ShloMosaic Idealize.ShloMosaic.TcCoe Idealize.SL.Sem

/-- The kernel, at the bit level, runs and leaves its argument as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the distance matrix of the (agreeing) arguments' rows. -/
theorem algebraic : Cert.algebraic_KernelIdeal_ReferenceIdeal := by
  intro m ρ m' ρ' _ hagree
  refine ⟨fun c => Cert.Sqdist.dist (Cert.KernelIdeal.KV.X m c), Cert.KernelIdeal.KV.run m ρ, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v13_eq _).trans
    ((Cert.ReferenceIdeal.RefValue.ref_eq _).trans (congrArg Cert.Sqdist.dist (hagree c))))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
